-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x512 : Shape := ⟨2, ![512, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  main_v18

def fn {F : FTy → Type} [FloatOps F] (main_arg0 : FVec F S8x2048x512 .f32) (main_arg1 : FVec F S512x512 .f32) (main_arg2 : FVec F S512x512 .f32) (main_arg3 : FVec F S512x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_v13 main_v16
-- ==== Kernel.lean ====
abbrev S8x2048x512 : Shape := ⟨3, ![8, 2048, 512]⟩
abbrev S512x512 : Shape := ⟨2, ![512, 512]⟩
abbrev S8x512x2048 : Shape := ⟨3, ![8, 512, 2048]⟩
abbrev S1x2048x512 : Shape := ⟨3, ![1, 2048, 512]⟩
abbrev S1x512x512 : Shape := ⟨3, ![1, 512, 512]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S8x2048x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .bf16⟩
  | .hbm, ⟨6, _⟩ => ⟨S512x512, .f32⟩
  | .hbm, ⟨7, _⟩ => ⟨S512x512, .bf16⟩
  | .hbm, ⟨8, _⟩ => ⟨S512x512, .f32⟩
  | .hbm, ⟨9, _⟩ => ⟨S512x512, .bf16⟩
  | .hbm, ⟨10, _⟩ => ⟨S8x512x2048, .f32⟩
  | .local _ .vmem, ⟨0, _⟩ => ⟨S1x2048x512, .f32⟩
  | .local _ .vmem, ⟨1, _⟩ => ⟨S1x2048x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S1x512x512, .f32⟩
  | .local _ .vmem, ⟨6, _⟩ => ⟨S1x512x512, .f32⟩
  | .local _ .vmem, ⟨7, _⟩ => ⟨S2048x512, .f32⟩
  | .local _ .vmem, ⟨8, _⟩ => ⟨S2048x512, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S512x512_S512x512_1_0 : S512x512.Transposes [1, 0] S512x512
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  h_S1x512x512 : 0 < S1x512x512.numel
  shapeCasts_S1x512x512_S512x512 : S1x512x512.ShapeCasts S512x512
  reduces_S512x2048_S512 : S512x2048.Reduces [1] S512
  shapeCasts_S512_S512x1 : S512.ShapeCasts S512x1
  broadcasts_S512x1_S512x2048 : S512x1.Broadcasts S512x2048
  inb_S1x512x512_S1x512x512_0_0_0 : ∀ a, (![0, 0, 0] : Fin 3 → Nat) a + S1x512x512.size a ≤ S1x512x512.size a
  shapeCasts_S512x512_S1x512x512 : S512x512.ShapeCasts S1x512x512
  dot_S2048x512_S512x512_S2048x512_1_0_0_1_n_n_wf : DotDims.WF S2048x512 S512x512 S2048x512 [1] [0] [0] [1] [] []
  dot_S512x512_S512x512_S512x512_1_0_0_1_n_n_wf : DotDims.WF S512x512 S512x512 S512x512 [1] [0] [0] [1] [] []
  dot_S512x512_S2048x512_S512x2048_1_1_0_0_n_n_wf : DotDims.WF S512x512 S2048x512 S512x2048 [1] [1] [0] [0] [] []
  dot_S2048x512_S512x2048_S512x512_0_1_1_0_n_n_wf : DotDims.WF S2048x512 S512x2048 S512x512 [0] [1] [1] [0] [] []
  hrank0 : 0 < grid0.rank
  k0_mult1_dvd : ∀ i : grid0.Coords, 512 ∣ (k0_mult1 i).toNat
  k0_off1_inb : ∀ i : grid0.Coords, ∀ a, (k0_off1 i) a + S1x512x512.size a ≤ S1x2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x512.size a
  hwx0_0 : ∀ i : grid0.Coords, EltTy.bits .f32 = 32 ∨ (Rect.block (s := S8x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S8x512x2048.size a
  hwx0_4 : ∀ i : grid0.Coords, EltTy.bits .f32 = 32 ∨ (Rect.block (s := S8x512x2048) S1x512x512.size (cc0_transform_4 i) (hinb0_4 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S2048x512_S512x2048_S512x512_0_1_1_0_n_n : DotDims S2048x512 S512x2048 S512x512 where
  lhsContracting := [0]
  rhsContracting := [1]
  lhsNonContracting := [1]
  rhsNonContracting := [0]
  lhsBatch := []
  rhsBatch := []
  wf := dot_S2048x512_S512x2048_S512x512_0_1_1_0_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S512x512 : Shape := ⟨2, ![512, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x512x2048 : Shape := ⟨3, ![8, 512, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S8x2048x512, .f32⟩
  | .hbm, ⟨5, _⟩ => ⟨S8x2048x512, .f32⟩
  | .hbm, ⟨6, _⟩ => ⟨S8x2048x512, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S8x2048x512, .f32⟩
  | .hbm, ⟨26, _⟩ => ⟨S8x512x2048, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  transposes_S8x2048x512_S8x512x2048_0_2_1 : S8x2048x512.Transposes [0, 2, 1] S8x512x2048
  dot_S8x2048x512_S512x512_S8x2048x512_2_1_01_0_n_n_wf : DotDims.WF S8x2048x512 S512x512 S8x2048x512 [2] [1] [0, 1] [0] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S512x512_S8x2048x512_2_1_01_0_n_n : DotDims S8x2048x512 S512x512 S8x2048x512 where
  lhsContracting := [2]
  rhsContracting := [1]
  lhsNonContracting := [0, 1]
  rhsNonContracting := [0]
  lhsBatch := []
  rhsBatch := []
  wf := dot_S8x2048x512_S512x512_S8x2048x512_2_1_01_0_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.Spec.lean ====
/-
  The function both programs compute, over the extended reals.

  For a batch b the three projections of the input x (8 × 2048 × 512) by the weight matrices W (512 × 512, stored
  out × in) are  proj x W b s e = Σ_d x[b, s, d] · W[e, d].  The attention logits of query row q against key row k
  are  logit b q k = (Σ_e Q[b, q, e] · K[b, k, e]) · 5.  A row of logits f is turned into weights by the shifted
  exponential  expw f k = exp (f k − max_k' f k')  normalised by its sum,  softw f k = expw f k / Σ_k' expw f k'.
  The result, stored transposed, is  out[b, d, q] = Σ_k softw (logit b q) k · V[b, k, d].

  The row maximum is the fold of max from −∞ over the row; the one law used about it is that −∞ is neutral.
-/
import Idealize.ShloMosaic.Lib.ValueIdx
import Idealize.ShloMosaic.PureOps.Ideal.Laws

noncomputable section

open scoped BigOperators

namespace Cert.Attention

open Idealize.ShloMosaic Idealize.ShloMosaic.ValueIdx

/-- The input, a weight matrix, and the transposed result, as shapes. -/
abbrev SX : Shape := ⟨3, ![8, 2048, 512]⟩
abbrev SW : Shape := ⟨2, ![512, 512]⟩
abbrev SO : Shape := ⟨3, ![8, 512, 2048]⟩

/-- The logit scale 5 and the bottom element −∞, as the words both programs write. -/
abbrev five : EReal := Ideal.ofBits .f32 0x40A00000#32
abbrev negInf : EReal := Ideal.ofBits .f32 0xFF800000#32

/-- The word of −∞ denotes the bottom of the extended reals. -/
theorem negInf_eq_bot : negInf = ⊥ := by simp [negInf, Ideal.ofBits, Ideal.ieee]

/-- −∞ is neutral for the maximum. -/
theorem max_negInf (y : EReal) : max negInf y = y := by rw [negInf_eq_bot]; exact max_bot_left y

/-- A projection: row s of batch b of the input against row e of the weight matrix. -/
def proj (x : SX.Idx → EReal) (W : SW.Idx → EReal) (b : Fin 8) (s : Fin 2048) (e : Fin 512) : EReal :=
  ∑ d : Fin 512, x (ix3 b s d) * W (ix2 e d)

/-- The scaled logit of query row q against key row k. -/
def logit (x : SX.Idx → EReal) (Wq Wk : SW.Idx → EReal) (b : Fin 8) (q k : Fin 2048) : EReal :=
  (∑ e : Fin 512, proj x Wq b q e * proj x Wk b k e) * five

/-- The maximum of a row, folded from −∞. -/
def rowMax (f : Fin 2048 → EReal) : EReal := (Finset.univ : Finset (Fin 2048)).fold max negInf f

/-- The shifted exponential of a row's entry. -/
def expw (f : Fin 2048 → EReal) (k : Fin 2048) : EReal := Ideal.exp (f k - rowMax f)

/-- The softmax weight of a row's entry. -/
def softw (f : Fin 2048 → EReal) (k : Fin 2048) : EReal := Ideal.div (expw f k) (∑ k' : Fin 2048, expw f k')

/-- The attention output, transposed: entry (b, d, q). -/
def out (x : SX.Idx → EReal) (Wk Wq Wv : SW.Idx → EReal) : SO.Idx → EReal := fun i =>
  ∑ k : Fin 2048, softw (logit x Wq Wk (i 0) (i 2)) k * proj x Wv (i 0) k (i 1)

end Cert.Attention

end
-- ==== Proof.RefValue.lean ====
/-
  The reference, read entry by entry: each stage of its host program is one of the functions of the specification.
  The three projections are sums over the feature axis; the logits a sum over the projected axis, scaled; the row
  maximum the fold of max from −∞ (a second maximum against −∞ changes nothing); the weights the shifted exponentials
  over their sum (the sum starts from the zero word); the result the weighted sum of the value rows, transposed.
-/
import proofs.«413124_j39676907885178_3_alg».proof.Proof.Spec
import proofs.«413124_j39676907885178_3_alg».proof.Proof.Gen.ReferenceIdeal.Read

noncomputable section

open scoped BigOperators

namespace Cert.Attention.Ref

open Idealize.ShloMosaic Idealize.ShloMosaic.ValueIdx Cert.Attention
open Cert.ReferenceIdeal Cert.ReferenceIdeal.Gen Cert.ReferenceIdeal.Read

variable (x : FVec Ideal S8x2048x512 .f32) (Wk Wq Wv : FVec Ideal S512x512 .f32)

/-- The query projection at (b, s, e). -/
theorem q_apply (b : Fin 8) (s : Fin 2048) (e : Fin 512) :
    val_main_v0 (F := Ideal) x Wq (ix3 b s e) = proj x Wq b s e := by
  rw [val_main_v0_apply]
  refine Finset.sum_congr rfl fun d _ => ?_
  have el : lidx_main_v0 (ix3 b s e) d = ix3 b s d :=
    funext fun a => Fin.ext (by match a with | ⟨0, _⟩ => rfl | ⟨1, _⟩ => rfl | ⟨2, _⟩ => rfl)
  have er : ridx_main_v0 (ix3 b s e) d = ix2 e d :=
    funext fun a => Fin.ext (by match a with | ⟨0, _⟩ => rfl | ⟨1, _⟩ => rfl)
  rw [el, er]

/-- The key projection at (b, s, e). -/
theorem k_apply (b : Fin 8) (s : Fin 2048) (e : Fin 512) :
    val_main_v1 (F := Ideal) x Wk (ix3 b s e) = proj x Wk b s e := by
  rw [val_main_v1_apply]
  refine Finset.sum_congr rfl fun d _ => ?_
  have el : lidx_main_v1 (ix3 b s e) d = ix3 b s d :=
    funext fun a => Fin.ext (by match a with | ⟨0, _⟩ => rfl | ⟨1, _⟩ => rfl | ⟨2, _⟩ => rfl)
  have er : ridx_main_v1 (ix3 b s e) d = ix2 e d :=
    funext fun a => Fin.ext (by match a with | ⟨0, _⟩ => rfl | ⟨1, _⟩ => rfl)
  rw [el, er]

/-- The value projection at (b, s, e). -/
theorem v_apply (b : Fin 8) (s : Fin 2048) (e : Fin 512) :
    val_main_v2 (F := Ideal) x Wv (ix3 b s e) = proj x Wv b s e := by
  rw [val_main_v2_apply]
  refine Finset.sum_congr rfl fun d _ => ?_
  have el : lidx_main_v2 (ix3 b s e) d = ix3 b s d :=
    funext fun a => Fin.ext (by match a with | ⟨0, _⟩ => rfl | ⟨1, _⟩ => rfl | ⟨2, _⟩ => rfl)
  have er : ridx_main_v2 (ix3 b s e) d = ix2 e d :=
    funext fun a => Fin.ext (by match a with | ⟨0, _⟩ => rfl | ⟨1, _⟩ => rfl)
  rw [el, er]

/-- The scaled logits at (b, q, k). -/
theorem logit_apply (b : Fin 8) (q k : Fin 2048) :
    val_main_v5 (F := Ideal) x Wk Wq (ix3 b q k) = logit x Wq Wk b q k := by
  rw [val_main_v5_apply, val_main_v3_apply, val_main_v4_apply, val_main_cst_apply]
  unfold logit
  show (∑ e : Fin 512, _) * Ideal.ofBits .f32 0x40A00000#32 = _
  refine congrArg (· * five) (Finset.sum_congr rfl fun e _ => ?_)
  have el : lidx_main_v3 (ix3 b q k) e = ix3 b q e :=
    funext fun a => Fin.ext (by match a with | ⟨0, _⟩ => rfl | ⟨1, _⟩ => rfl | ⟨2, _⟩ => rfl)
  have er : ridx_main_v3 (ix3 b q k) e = ix3 b k e :=
    funext fun a => Fin.ext (by match a with | ⟨0, _⟩ => rfl | ⟨1, _⟩ => rfl | ⟨2, _⟩ => rfl)
  rw [el, er, q_apply, k_apply]

/-- Putting the reduced coordinate k back into (b, q) gives (b, q, k). -/
theorem lift_row (h : S8x2048x2048.Reduces [2] S8x2048) (b : Fin 8) (q : Fin 2048) (k : Fin (S8x2048x2048.size 2)) :
    h.lift (ix2 b q) k = ix3 b q (⟨k.val, k.isLt⟩ : Fin 2048) := by
  funext a; apply Fin.ext
  match a with
  | ⟨0, _⟩ => rfl
  | ⟨1, _⟩ => rfl
  | ⟨2, _⟩ => rfl

/-- The row maximum at (b, q): the host's reduce from −∞, and a maximum against −∞ once more. -/
theorem rowMax_apply (b : Fin 8) (q : Fin 2048) :
    val_main_v8 (F := Ideal) x Wk Wq (ix2 b q) = rowMax (logit x Wq Wk b q) := by
  rw [val_main_v8_apply, val_main_v7_apply, val_main_cst_1_apply]
  unfold val_main_v6
  have hr : S8x2048x2048.Reduces [2] S8x2048 := by decide
  rw [Host.reduce_eq_fold_single FloatOps.maximumf _ _ reducesTo_S8x2048x2048_S8x2048_d2 hr h_S_]
  show max negInf ((Finset.univ : Finset (Fin 2048)).fold max negInf _) = _
  rw [max_negInf]
  unfold rowMax
  refine congrArg (fun f => (Finset.univ : Finset (Fin 2048)).fold max negInf f) (funext fun k => ?_)
  show val_main_v5 (F := Ideal) x Wk Wq (hr.lift (ix2 b q) k) = _
  rw [lift_row hr b q k, logit_apply]
  rfl

/-- The shifted exponentials at (b, q, k). -/
theorem expw_apply (b : Fin 8) (q k : Fin 2048) :
    val_main_v12 (F := Ideal) x Wk Wq (ix3 b q k) = expw (logit x Wq Wk b q) k := by
  rw [val_main_v12_apply, val_main_v11_apply, val_main_v10_apply, val_main_v9_apply, logit_apply]
  have e1 : idx_main_v9 (idx_main_v10 (ix3 b q k)) = ix2 b q :=
    funext fun a => Fin.ext (by match a with | ⟨0, _⟩ => rfl | ⟨1, _⟩ => rfl)
  rw [e1, rowMax_apply]
  rfl

/-- Their sum over the row at (b, q). -/
theorem expsum_apply (b : Fin 8) (q : Fin 2048) :
    val_main_v13 (F := Ideal) x Wk Wq (ix2 b q) = ∑ k : Fin 2048, expw (logit x Wq Wk b q) k := by
  rw [val_main_v13_apply, val_main_cst_2_apply]
  show Ideal.ofBits .f32 0x00000000#32 + _ = _
  rw [Ideal.ofBits_zero_f32, zero_add]
  refine Finset.sum_congr rfl fun k _ => ?_
  have e1 : idx_main_v13 (ix2 b q) k = ix3 b q k :=
    funext fun a => Fin.ext (by match a with | ⟨0, _⟩ => rfl | ⟨1, _⟩ => rfl | ⟨2, _⟩ => rfl)
  rw [e1, expw_apply]

/-- The softmax weights at (b, q, k). -/
theorem softw_apply (b : Fin 8) (q k : Fin 2048) :
    val_main_v16 (F := Ideal) x Wk Wq (ix3 b q k) = softw (logit x Wq Wk b q) k := by
  rw [val_main_v16_apply, val_main_v15_apply, val_main_v14_apply, expw_apply]
  have e1 : idx_main_v14 (idx_main_v15 (ix3 b q k)) = ix2 b q :=
    funext fun a => Fin.ext (by match a with | ⟨0, _⟩ => rfl | ⟨1, _⟩ => rfl)
  rw [e1, expsum_apply]
  rfl

/-- The reference's result is the specification's function of the four arguments. -/
theorem result_eq : val_main_v18 (F := Ideal) x Wk Wq Wv = out x Wk Wq Wv := by
  funext i
  obtain ⟨b, d, q, rfl⟩ : ∃ (b : Fin 8) (d : Fin 512) (q : Fin 2048), i = ix3 b d q := ⟨i 0, i 1, i 2, eq_ix3 i⟩
  rw [val_main_v18_apply, val_main_v17_apply]
  unfold out
  refine Finset.sum_congr rfl fun k _ => ?_
  have el : lidx_main_v17 (idx_main_v18 (ix3 b d q)) k = ix3 b q k :=
    funext fun a => Fin.ext (by match a with | ⟨0, _⟩ => rfl | ⟨1, _⟩ => rfl | ⟨2, _⟩ => rfl)
  have er : ridx_main_v17 (idx_main_v18 (ix3 b d q)) k = ix3 b k d :=
    funext fun a => Fin.ext (by match a with | ⟨0, _⟩ => rfl | ⟨1, _⟩ => rfl | ⟨2, _⟩ => rfl)
  rw [el, er, softw_apply, v_apply]

end Cert.Attention.Ref

end
-- ==== Proof.LibLayout.lean ====
/-
  General lemmas, all at the ideal values (extended reals) or for any element type, each reading an array operation at
  an index given by its coordinates:
  a matrix product into the zero accumulator, for any dimension numbers that contract one axis, as a sum over that
  axis's range; a vector [a] viewed as a column [a, 1]; a column [a, 1] copied along every column of [a, b]; the sum
  and the maximum of a matrix along its rows.
-/
import Idealize.ShloMosaic.Lib.ValueIdx
import Idealize.ShloMosaic.Lib.Pipeline.Value
import Idealize.ShloMosaic.PureOps.Ideal.Laws

noncomputable section

open scoped BigOperators

namespace Cert.LibLayout

open Idealize.ShloMosaic Idealize.ShloMosaic.ValueIdx

/-- A product contracting ONE axis of extent n, accumulated into zero, read at an output index j: the sum over the
    contracted coordinate k of the left operand at li k times the right at ri k, where li and ri are the operand
    indices the dimension numbers assign to (j, k). -/
theorem matmul_zero_sum {sl sr so : Shape} {φ₁ φ₂ : FTy} (D : DotDims sl sr so) (n : Nat) (hr : D.contr.rank = 1)
    (hs : D.contr.size ⟨0, by omega⟩ = n) (prec : Option ContractPrecision)
    (A : FVec Ideal sl φ₁) (B : FVec Ideal sr φ₂) (j : so.Idx) (li : Fin n → sl.Idx) (ri : Fin n → sr.Idx)
    (hl : ∀ (q : D.contr.Idx) (k : Fin n), (q ⟨0, by omega⟩ : ℕ) = k.val → D.lhsIdx j q = li k)
    (hrr : ∀ (q : D.contr.Idx) (k : Fin n), (q ⟨0, by omega⟩ : ℕ) = k.val → D.rhsIdx j q = ri k) :
    matmul (F := Ideal) D prec A B (constant so .f32 0x00000000#32) j = ∑ k : Fin n, A (li k) * B (ri k) := by
  show FloatOps.matmul D prec A B _ j = _
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

section Casts
variable {α : Type}

/-- A vector [a] viewed as a column [a, 1]. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] copied along every column of [a, b]. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Casts

/-- Putting the reduced column coordinate k back into row r gives (r, k). -/
theorem lift_col {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  match c with
  | ⟨0, _⟩ => rfl
  | ⟨1, _⟩ => rfl

/-- The sum of a matrix along its rows, from the zero word: row r's sum. -/
theorem multiReduction_add_row {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v _ h hφ hacc (ix1 r)).trans (by
    show ∑ k : Fin b, v (h.lift (ix1 r) k) = _
    exact Finset.sum_congr rfl fun k _ => congrArg v (lift_col h r k))

/-- The maximum of a matrix along its rows, from the word of −∞: the fold of max over row r. -/
theorem multiReduction_max_row {a b : ℕ} (v : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max (Ideal.ofBits .f32 0xFF800000#32) (fun k => v (ix2 r k)) :=
  (Ideal.multiReduction_maximumf_single v _ h hφ hacc (ix1 r)).trans (by
    show (Finset.univ : Finset (Fin b)).fold max (Ideal.ofBits .f32 0xFF800000#32) (fun k => v (h.lift (ix1 r) k)) = _
    exact congrArg (fun f => (Finset.univ : Finset (Fin b)).fold max (Ideal.ofBits .f32 0xFF800000#32) f)
      (funext fun k => congrArg v (lift_col h r k)))

end Cert.LibLayout

end
-- ==== Proof.Payload.lean ====
/-
  The kernel body's arithmetic, read entry by entry at the ideal values.

  Where the grid's inner coordinate is zero the body projects the whole batch block twice, into the key scratch and the
  value scratch: entry (s, e) of either is Σ_d x[s, d] · w[d, e], w the transposed weight block. At every point it
  projects 512 query rows the same way, multiplies them against the key scratch (contracting the projected axis of
  both), scales by 5, turns each row into softmax weights (row maximum from −∞, shifted exponential, row sum from zero,
  quotient), and contracts the weights' key axis against the value scratch's row axis, giving entry (d, r) =
  Σ_k vals[k, d] · weights[r, k]. Changes of float format are the identity here.
-/
import proofs.«413124_j39676907885178_3_alg».proof.Proof.Spec
import proofs.«413124_j39676907885178_3_alg».proof.Proof.LibLayout
import proofs.«413124_j39676907885178_3_alg».proof.Proof.Gen.KernelIdeal.Skeleton
import Idealize.ShloMosaic.Lib.ValueLayout

noncomputable section

open scoped BigOperators

namespace Cert.Attention.Kernel

open Idealize.ShloMosaic Idealize.ShloMosaic.ValueIdx Cert.Attention Cert.LibLayout
open Cert.KernelIdeal Cert.KernelIdeal.Gen

/-! ## The four products' operand indices, axis by axis -/

theorem lhs_kv_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_kv_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs_kv_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs_kv_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl
theorem lhs_qp_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_qp_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_qp_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_qp_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl
theorem lhs_sc_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem lhs_sc_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
theorem rhs_sc_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
theorem rhs_sc_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q
theorem lhs_av_0 (i : S512x512.Idx) (q : dot_S2048x512_S512x2048_S512x512_0_1_1_0_n_n.contr.Idx) :
    (dot_S2048x512_S512x2048_S512x512_0_1_1_0_n_n.lhsIdx i q 0).val = (q ⟨0, by decide⟩).val :=
  dot_S2048x512_S512x2048_S512x512_0_1_1_0_n_n.lhsIdx_val_of_single rfl i q
theorem lhs_av_1 (i : S512x512.Idx) (q : dot_S2048x512_S512x2048_S512x512_0_1_1_0_n_n.contr.Idx) :
    (dot_S2048x512_S512x2048_S512x512_0_1_1_0_n_n.lhsIdx i q 1).val = (i 0).val := by
  unfold DotDims.lhsIdx
  rw [dif_neg (show ¬(1 : Fin S2048x512.rank) ∈ dot_S2048x512_S512x2048_S512x512_0_1_1_0_n_n.lhsBatch by decide), dif_pos (show (1 : Fin S2048x512.rank) ∈ dot_S2048x512_S512x2048_S512x512_0_1_1_0_n_n.lhsNonContracting by decide)]
  rfl
theorem rhs_av_0 (i : S512x512.Idx) (q : dot_S2048x512_S512x2048_S512x512_0_1_1_0_n_n.contr.Idx) :
    (dot_S2048x512_S512x2048_S512x512_0_1_1_0_n_n.rhsIdx i q 0).val = (i 1).val := by
  unfold DotDims.rhsIdx
  rw [dif_neg (show ¬(0 : Fin S512x2048.rank) ∈ dot_S2048x512_S512x2048_S512x512_0_1_1_0_n_n.rhsBatch by decide), dif_pos (show (0 : Fin S512x2048.rank) ∈ dot_S2048x512_S512x2048_S512x512_0_1_1_0_n_n.rhsNonContracting by decide)]
  rfl
theorem rhs_av_1 (i : S512x512.Idx) (q : dot_S2048x512_S512x2048_S512x512_0_1_1_0_n_n.contr.Idx) :
    (dot_S2048x512_S512x2048_S512x512_0_1_1_0_n_n.rhsIdx i q 1).val = (q ⟨0, by decide⟩).val :=
  dot_S2048x512_S512x2048_S512x512_0_1_1_0_n_n.rhsIdx_val_of_single rfl i q

/-! ## The projections stored at the first point of a batch -/

/-- The batch block as a matrix: entry (s, d). -/
theorem xmat_apply (v31 : FVec Ideal S1x2048x512 .f32) (s : Fin 2048) (d : Fin 512) :
    k0_pay1 (F := Ideal) v31 (ix2 s d) = v31 (ix3 (0 : Fin 1) s d) :=
  shapeCast_1ab_ab_apply v31 shapeCasts_S1x2048x512_S2048x512 s d

/-- A product of the batch block's matrix with a weight block, at (s, e). -/
theorem xw_apply (v31 : FVec Ideal S1x2048x512 .f32) (w : FVec Ideal S512x512 .bf16) (s : Fin 2048) (e : Fin 512) :
    matmul (F := Ideal) dot_S2048x512_S512x512_S2048x512_1_0_0_1_n_n none (k0_pay1 (F := Ideal) v31) w (constant S2048x512 .f32 0x00000000#32) (ix2 s e)
      = ∑ d : Fin 512, v31 (ix3 (0 : Fin 1) s d) * w (ix2 d e) := by
  refine (matmul_zero_sum dot_S2048x512_S512x512_S2048x512_1_0_0_1_n_n 512 rfl rfl none (k0_pay1 (F := Ideal) v31) w (ix2 s e)
    (fun d => ix2 s d) (fun d => ix2 d e) (fun q k hq => ?_) (fun q k hq => ?_)).trans ?_
  · exact funext fun a => Fin.ext (by
      match a with
      | ⟨0, _⟩ => exact lhs_kv_0 _ _
      | ⟨1, _⟩ => exact (lhs_kv_1 _ _).trans hq)
  · exact funext fun a => Fin.ext (by
      match a with
      | ⟨0, _⟩ => exact (rhs_kv_0 _ _).trans hq
      | ⟨1, _⟩ => exact rhs_kv_1 _ _)
  · exact Finset.sum_congr rfl fun d _ => by rw [xmat_apply]

/-- What the first point of a batch stores in the key scratch, at (s, e). -/
theorem keys_apply (v31 : FVec Ideal S1x2048x512 .f32) (w : FVec Ideal S512x512 .bf16) (s : Fin 2048) (e : Fin 512) :
    k0_pay2 (F := Ideal) v31 w (ix2 s e) = ∑ d : Fin 512, v31 (ix3 (0 : Fin 1) s d) * w (ix2 d e) := by
  show shapeCast S2048x512 (matmul (F := Ideal) dot_S2048x512_S512x512_S2048x512_1_0_0_1_n_n none (k0_pay1 (F := Ideal) v31)
    (shapeCast S512x512 w shapeCasts_S512x512_S512x512) (constant S2048x512 .f32 0x00000000#32)) shapeCasts_S2048x512_S2048x512 (ix2 s e) = _
  rw [shapeCast_self, shapeCast_self]
  exact xw_apply v31 w s e

/-- What it stores in the value scratch, at (s, e). -/
theorem vals_apply (v31 : FVec Ideal S1x2048x512 .f32) (w : FVec Ideal S512x512 .bf16) (s : Fin 2048) (e : Fin 512) :
    k0_pay3 (F := Ideal) v31 w (ix2 s e) = ∑ d : Fin 512, v31 (ix3 (0 : Fin 1) s d) * w (ix2 d e) := by
  show shapeCast S2048x512 (truncf .bf16 (matmul (F := Ideal) dot_S2048x512_S512x512_S2048x512_1_0_0_1_n_n none (k0_pay1 (F := Ideal) v31)
    (shapeCast S512x512 w shapeCasts_S512x512_S512x512) (constant S2048x512 .f32 0x00000000#32)) bitsLt_bf16_f32) shapeCasts_S2048x512_S2048x512 (ix2 s e) = _
  rw [shapeCast_self, shapeCast_self]
  exact xw_apply v31 w s e

/-! ## The attention of one query tile, stage by stage -/

/-- The query tile projected. -/
def qtile (v6 : FVec Ideal S1x512x512 .f32) (v9 : FVec Ideal S512x512 .bf16) : FVec Ideal S512x512 .f32 :=
  matmul (F := Ideal) dot_S512x512_S512x512_S512x512_1_0_0_1_n_n none (truncf .bf16 (shapeCast S512x512 v6 shapeCasts_S1x512x512_S512x512) bitsLt_bf16_f32)
    (shapeCast S512x512 v9 shapeCasts_S512x512_S512x512) (constant S512x512 .f32 0x00000000#32)

/-- The scaled logits of the tile's rows against every key row. -/
def tlogits (v6 : FVec Ideal S1x512x512 .f32) (v9 : FVec Ideal S512x512 .bf16) (v12 : FVec Ideal S2048x512 .f32) :
    FVec Ideal S512x2048 .f32 :=
  mulf (matmul (F := Ideal) dot_S512x512_S2048x512_S512x2048_1_1_0_0_n_n (some .fp32) (qtile v6 v9) v12 (constant S512x2048 .f32 0x00000000#32))
    (broadcast S512x2048 (Scalar.ofBits (F := Ideal) .f32 0x40A00000#32))

/-- The rows' maxima. -/
def tmax (sc : FVec Ideal S512x2048 .f32) : FVec Ideal S512 .f32 :=
  multiReduction .maximumf [1] S512 sc 0xFF800000#32 reduces_S512x2048_S512 (.inl rfl) rfl

/-- The shifted exponentials. -/
def texp (sc : FVec Ideal S512x2048 .f32) : FVec Ideal S512x2048 .f32 :=
  exp (subf sc (broadcastTo S512x2048 (shapeCast S512x1 (tmax sc) shapeCasts_S512_S512x1) broadcasts_S512x1_S512x2048))

/-- The rows' sums. -/
def tsum (ex : FVec Ideal S512x2048 .f32) : FVec Ideal S512 .f32 :=
  multiReduction .add [1] S512 ex 0x00000000#32 reduces_S512x2048_S512 (.inl rfl) rfl

/-- The softmax weights. -/
def tweights (sc : FVec Ideal S512x2048 .f32) : FVec Ideal S512x2048 .bf16 :=
  truncf .bf16 (divf (texp sc) (broadcastTo S512x2048 (shapeCast S512x1 (tsum (texp sc)) shapeCasts_S512_S512x1)
    broadcasts_S512x1_S512x2048)) bitsLt_bf16_f32

/-- The body's stored block is these stages composed. -/
theorem tile_eq (v6 : FVec Ideal S1x512x512 .f32) (v9 : FVec Ideal S512x512 .bf16) (v12 : FVec Ideal S2048x512 .f32)
    (v13 : FVec Ideal S2048x512 .bf16) :
    k0_pay4 (F := Ideal) v6 v9 v12 v13
      = shapeCast S1x512x512 (matmul (F := Ideal) dot_S2048x512_S512x2048_S512x512_0_1_1_0_n_n none v13 (tweights (tlogits v6 v9 v12))
          (constant S512x512 .f32 0x00000000#32)) shapeCasts_S512x512_S1x512x512 := rfl

theorem qtile_apply (v6 : FVec Ideal S1x512x512 .f32) (v9 : FVec Ideal S512x512 .bf16) (r e : Fin 512) :
    qtile v6 v9 (ix2 r e) = ∑ d : Fin 512, v6 (ix3 (0 : Fin 1) r d) * v9 (ix2 d e) := by
  unfold qtile
  rw [shapeCast_self]
  refine (matmul_zero_sum dot_S512x512_S512x512_S512x512_1_0_0_1_n_n 512 rfl rfl none _ v9 (ix2 r e)
    (fun d => ix2 r d) (fun d => ix2 d e) (fun q k hq => ?_) (fun q k hq => ?_)).trans ?_
  · exact funext fun a => Fin.ext (by
      match a with
      | ⟨0, _⟩ => exact lhs_qp_0 _ _
      | ⟨1, _⟩ => exact (lhs_qp_1 _ _).trans hq)
  · exact funext fun a => Fin.ext (by
      match a with
      | ⟨0, _⟩ => exact (rhs_qp_0 _ _).trans hq
      | ⟨1, _⟩ => exact rhs_qp_1 _ _)
  · exact Finset.sum_congr rfl fun d _ =>
      congrArg (· * v9 (ix2 d e)) (shapeCast_1ab_ab_apply v6 shapeCasts_S1x512x512_S512x512 r d)

theorem tlogits_apply (v6 : FVec Ideal S1x512x512 .f32) (v9 : FVec Ideal S512x512 .bf16) (v12 : FVec Ideal S2048x512 .f32)
    (r : Fin 512) (k : Fin 2048) :
    tlogits v6 v9 v12 (ix2 r k) = (∑ e : Fin 512, qtile v6 v9 (ix2 r e) * v12 (ix2 k e)) * five := by
  unfold tlogits
  show matmul (F := Ideal) dot_S512x512_S2048x512_S512x2048_1_1_0_0_n_n (some .fp32) (qtile v6 v9) v12 (constant S512x2048 .f32 0x00000000#32) (ix2 r k) * five = _
  refine congrArg (· * five) ?_
  refine matmul_zero_sum dot_S512x512_S2048x512_S512x2048_1_1_0_0_n_n 512 rfl rfl (some .fp32) (qtile v6 v9) v12 (ix2 r k)
    (fun e => ix2 r e) (fun e => ix2 k e) (fun q e hq => ?_) (fun q e hq => ?_)
  · exact funext fun a => Fin.ext (by
      match a with
      | ⟨0, _⟩ => exact lhs_sc_0 _ _
      | ⟨1, _⟩ => exact (lhs_sc_1 _ _).trans hq)
  · exact funext fun a => Fin.ext (by
      match a with
      | ⟨0, _⟩ => exact rhs_sc_0 _ _
      | ⟨1, _⟩ => exact (rhs_sc_1 _ _).trans hq)

theorem tmax_apply (sc : FVec Ideal S512x2048 .f32) (r : Fin 512) :
    tmax sc (ix1 r) = rowMax fun k => sc (ix2 r k) :=
  multiReduction_max_row sc reduces_S512x2048_S512 (.inl rfl) rfl r

theorem texp_apply (sc : FVec Ideal S512x2048 .f32) (r : Fin 512) (k : Fin 2048) :
    texp sc (ix2 r k) = expw (fun k' => sc (ix2 r k')) k := by
  unfold texp expw
  show Ideal.exp (sc (ix2 r k) - broadcastTo S512x2048 (shapeCast S512x1 (tmax sc) shapeCasts_S512_S512x1)
    broadcasts_S512x1_S512x2048 (ix2 r k)) = _
  rw [broadcastTo_a1_ab_apply, shapeCast_a_a1_apply, tmax_apply]

theorem tsum_apply (ex : FVec Ideal S512x2048 .f32) (r : Fin 512) :
    tsum ex (ix1 r) = ∑ k : Fin 2048, ex (ix2 r k) :=
  multiReduction_add_row ex reduces_S512x2048_S512 (.inl rfl) rfl r

theorem tweights_apply (sc : FVec Ideal S512x2048 .f32) (r : Fin 512) (k : Fin 2048) :
    tweights sc (ix2 r k) = softw (fun k' => sc (ix2 r k')) k := by
  unfold tweights softw
  show Ideal.div (texp sc (ix2 r k)) (broadcastTo S512x2048 (shapeCast S512x1 (tsum (texp sc)) shapeCasts_S512_S512x1)
    broadcasts_S512x1_S512x2048 (ix2 r k)) = _
  rw [broadcastTo_a1_ab_apply, shapeCast_a_a1_apply, tsum_apply, texp_apply]
  exact congrArg (Ideal.div _) (Finset.sum_congr rfl fun k' _ => texp_apply sc r k')

/-- The stored block at (d, r): the value scratch's column d against the weights of row r. -/
theorem tile_apply (v6 : FVec Ideal S1x512x512 .f32) (v9 : FVec Ideal S512x512 .bf16) (v12 : FVec Ideal S2048x512 .f32)
    (v13 : FVec Ideal S2048x512 .bf16) (u : Fin 1) (d r : Fin 512) :
    k0_pay4 (F := Ideal) v6 v9 v12 v13 (ix3 u d r)
      = ∑ k : Fin 2048, v13 (ix2 k d) * softw (fun k' => tlogits v6 v9 v12 (ix2 r k')) k := by
  rw [tile_eq, shapeCast_ab_1ab_apply]
  refine (matmul_zero_sum dot_S2048x512_S512x2048_S512x512_0_1_1_0_n_n 2048 rfl rfl none v13 (tweights (tlogits v6 v9 v12)) (ix2 d r)
    (fun k => ix2 k d) (fun k => ix2 r k) (fun q k hq => ?_) (fun q k hq => ?_)).trans ?_
  · exact funext fun a => Fin.ext (by
      match a with
      | ⟨0, _⟩ => exact (lhs_av_0 _ _).trans hq
      | ⟨1, _⟩ => exact lhs_av_1 _ _)
  · exact funext fun a => Fin.ext (by
      match a with
      | ⟨0, _⟩ => exact rhs_av_0 _ _
      | ⟨1, _⟩ => exact (rhs_av_1 _ _).trans hq)
  · exact Finset.sum_congr rfl fun k _ => by rw [tweights_apply]

/-- One stored block against the specification: when the query tile's row r is row q of batch b of the input, the
    weight block the transposed query weights, and the two scratches that batch's key and value projections, the
    block's entry (d, r) is the specification's entry (b, d, q). The two sides multiply in opposite orders. -/
theorem tile_spec (X : SX.Idx → EReal) (Wk Wq Wv : SW.Idx → EReal) (b : Fin 8) (q : Fin 2048) (r : Fin 512)
    (v6 : FVec Ideal S1x512x512 .f32) (v9 : FVec Ideal S512x512 .bf16) (v12 : FVec Ideal S2048x512 .f32)
    (v13 : FVec Ideal S2048x512 .bf16)
    (h6 : ∀ d : Fin 512, v6 (ix3 (0 : Fin 1) r d) = X (ix3 b q d))
    (h9 : ∀ d e : Fin 512, v9 (ix2 d e) = Wq (ix2 e d))
    (h12 : ∀ (k : Fin 2048) (e : Fin 512), v12 (ix2 k e) = proj X Wk b k e)
    (h13 : ∀ (k : Fin 2048) (d : Fin 512), v13 (ix2 k d) = proj X Wv b k d) (u : Fin 1) (d : Fin 512) :
    k0_pay4 (F := Ideal) v6 v9 v12 v13 (ix3 u d r) = out X Wk Wq Wv (ix3 b d q) := by
  rw [tile_apply]
  have hl : (fun k' : Fin 2048 => tlogits v6 v9 v12 (ix2 r k')) = logit X Wq Wk b q := by
    funext k'
    rw [tlogits_apply]
    unfold logit
    refine congrArg (· * five) (Finset.sum_congr rfl fun e _ => ?_)
    rw [qtile_apply, h12]
    refine congrArg (· * proj X Wk b k' e) ?_
    unfold proj
    exact Finset.sum_congr rfl fun d' _ => by rw [h6, h9]
  rw [hl]
  show ∑ k : Fin 2048, _ = ∑ k : Fin 2048, softw (logit X Wq Wk b q) k * proj X Wv b k d
  exact Finset.sum_congr rfl fun k _ => by rw [h13, mul_comm]

end Cert.Attention.Kernel

end
-- ==== Proof.Pieces.lean ====
/-
  What one run of the body leaves behind, as values of what it read.

  At the first point of a batch (inner coordinate zero) the body stores, whole, the key projection of the batch block
  into the first scratch and the value projection into the second, then reads both back and stores the attention of
  its query tile against them into the output block. At a later point it stores nothing into the scratches and
  computes the output block from what they hold. The query tile is the 512 rows of the batch block that start at row
  512 · (inner coordinate). Stated for any float instance.
-/
import proofs.«413124_j39676907885178_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.Attention.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The query tile: 512 rows of the batch block, from the row offset the body computes at the grid point. -/
abbrev qslice (i : grid0.Coords) (x0 : Vec F S1x2048x512 .f32) : Vec F S1x512x512 .f32 :=
  View.ld x0 (Rect.unit (s := S1x2048x512) (k0_off1 i) S1x512x512.size (k0_off1_inb i))

/-- The first point of a batch leaves the key projection in the first scratch. -/
theorem keys_piece (c : Dev nD) (i : grid0.Coords) (arg2 : Memref sig .tc .vmem S1x2048x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S2048x512 .f32) (harg7 : arg7.IsWhole) (arg8 : Memref sig .tc .vmem S2048x512 .bf16) (harg8 : arg8.IsWhole) (hc0 : cond0_0 i)
    (x0 : Vec F S1x2048x512 .f32) (x1 : Vec F S512x512 .bf16) (x2 : Vec F S512x512 .bf16) (x3 : Vec F S512x512 .bf16) :
    sout0_A_0 c i arg2 harg2 arg3 harg3 arg4 harg4 arg5 harg5 arg6 harg6 arg7 harg7 arg8 harg8 hc0 x0 x1 x2 x3 = k0_pay2 x0 x2 := by
  unfold sout0_A_0
  rw [View.read_writes_eq_canon _ _ _ (scover0_A_0 c i arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg2.read_unread, harg4.read_unread, View.ld_unit_zero (S := S1x2048x512) hz3,
    View.ld_unit_zero (S := S512x512) hz2]

/-- … and the value projection in the second. -/
theorem vals_piece (c : Dev nD) (i : grid0.Coords) (arg2 : Memref sig .tc .vmem S1x2048x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S2048x512 .f32) (harg7 : arg7.IsWhole) (arg8 : Memref sig .tc .vmem S2048x512 .bf16) (harg8 : arg8.IsWhole) (hc0 : cond0_0 i)
    (x0 : Vec F S1x2048x512 .f32) (x1 : Vec F S512x512 .bf16) (x2 : Vec F S512x512 .bf16) (x3 : Vec F S512x512 .bf16) :
    sout0_A_1 c i arg2 harg2 arg3 harg3 arg4 harg4 arg5 harg5 arg6 harg6 arg7 harg7 arg8 harg8 hc0 x0 x1 x2 x3 = k0_pay3 x0 x3 := by
  unfold sout0_A_1
  rw [View.read_writes_eq_canon _ _ _ (scover0_A_1 c i arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg2.read_unread, harg5.read_unread, View.ld_unit_zero (S := S1x2048x512) hz3,
    View.ld_unit_zero (S := S512x512) hz2]

/-- The output block of the first point of a batch: the tile's attention against the projections just stored. -/
theorem tile_piece_first (c : Dev nD) (i : grid0.Coords) (arg2 : Memref sig .tc .vmem S1x2048x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S2048x512 .f32) (harg7 : arg7.IsWhole) (arg8 : Memref sig .tc .vmem S2048x512 .bf16) (harg8 : arg8.IsWhole) (hc0 : cond0_0 i)
    (x0 : Vec F S1x2048x512 .f32) (x1 : Vec F S512x512 .bf16) (x2 : Vec F S512x512 .bf16) (x3 : Vec F S512x512 .bf16) :
    out0_A_4 c i arg2 harg2 arg3 harg3 arg4 harg4 arg5 harg5 arg6 harg6 arg7 harg7 arg8 harg8 hc0 x0 x1 x2 x3 = k0_pay4 (qslice i x0) x1 (k0_pay2 x0 x2) (k0_pay3 x0 x3) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero hz3]
  simp only [View.readAt_eq_ld, harg2.read_unread, harg3.read_unread, harg4.read_unread, harg5.read_unread,
    View.readCov_unit_zero (S := S2048x512) _ hz2,
    View.ld_unit_zero (S := S1x2048x512) hz3, View.ld_unit_zero (S := S512x512) hz2]
  rfl

/-- The output block of a later point: the tile's attention against what the scratches hold. -/
theorem tile_piece_later (c : Dev nD) (i : grid0.Coords) (arg2 : Memref sig .tc .vmem S1x2048x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512x512 .f32) (harg6 : arg6.IsWhole) (arg7 : Memref sig .tc .vmem S2048x512 .f32) (harg7 : arg7.IsWhole) (arg8 : Memref sig .tc .vmem S2048x512 .bf16) (harg8 : arg8.IsWhole) (hc0 : ¬cond0_0 i)
    (x0 : Vec F S1x2048x512 .f32) (x1 : Vec F S512x512 .bf16) (x2 : Vec F S512x512 .bf16) (x3 : Vec F S512x512 .bf16) (xs0 : Vec F S2048x512 .f32) (xs1 : Vec F S2048x512 .bf16) :
    out0_B_4 c i arg2 harg2 arg3 harg3 arg4 harg4 arg5 harg5 arg6 harg6 arg7 harg7 arg8 harg8 hc0 x0 x1 x2 x3 xs0 xs1 = k0_pay4 (qslice i x0) x1 xs0 xs1 := by
  unfold out0_B_4
  rw [View.read_writes_eq_canon _ _ _ (cover0_B_4 c i arg2 harg2 arg3 harg3 arg4 harg4 arg5 harg5 arg6 harg6 arg7 harg7 arg8 harg8 hc0 x0 x1 x2 x3 xs0 xs1)]
  unfold kernelRun0_B
  dsimp only
  rw [View.canon_unit_zero hz3]
  simp only [View.readAt_eq_ld, harg2.read_unread, harg3.read_unread, harg7.read_unread, harg8.read_unread,
    View.ld_unit_zero (S := S2048x512) hz2, View.ld_unit_zero (S := S512x512) hz2]

end Cert.Attention.Pieces

end
-- ==== Proof.Blocks.lean ====
/-
  The kernel's result array, read as one function of the four arguments.

  The grid has 32 points, point t working on batch t / 4 and query tile t % 4. The input window hands the body batch
  t / 4 whole; the three weight windows hand it the weight matrices transposed (the host transposes them before the
  call); the output window's block at t is batch t / 4, every feature row, columns 512 · (t % 4) onwards. The two
  scratches are written at the points divisible by 4 and kept in between, so after every point t they hold the key and
  value projections of batch t / 4 (induction on the point). Hence what point t writes back is block t of the
  specification's function, the 32 blocks cover the array, and the run ends with the array at that function.
-/
import proofs.«413124_j39676907885178_3_alg».proof.Proof.Payload
import proofs.«413124_j39676907885178_3_alg».proof.Proof.Pieces
import proofs.«413124_j39676907885178_3_alg».proof.Proof.Gen.KernelIdeal.Value
import Idealize.ShloMosaic.Lib.Pipeline.Value
import Idealize.ShloMosaic.Lib.StableHlo.Run
import Idealize.ShloMosaic.Lib.ValueLayout
import Idealize.ShloMosaic.Lib.Tactic

noncomputable section

open scoped BigOperators

open Idealize.ShloMosaic Idealize.ShloMosaic.TcCoe Idealize.SL.Sem
open Idealize.ShloMosaic.Pipeline (Dat)

namespace Cert.Attention.Run

open Idealize.ShloMosaic.ValueIdx Cert.Attention Cert.Attention.Kernel Cert.Attention.Pieces
open Cert.KernelIdeal Cert.KernelIdeal.Gen

variable (m : (ℓ : Loc nD τ sig) → Buf (Elt Ideal) ℓ) (ρ : Dev nD → PrngReg)

/-! ## The arguments, the result, and the windows' blocks by their literal types -/

abbrev xarr (c : Dev nD) : FVec Ideal S8x2048x512 .f32 := m ((c : Thread nD τ).loc main_arg0)
abbrev wkarr (c : Dev nD) : FVec Ideal S512x512 .f32 := m ((c : Thread nD τ).loc main_arg1)
abbrev wqarr (c : Dev nD) : FVec Ideal S512x512 .f32 := m ((c : Thread nD τ).loc main_arg2)
abbrev wvarr (c : Dev nD) : FVec Ideal S512x512 .f32 := m ((c : Thread nD τ).loc main_arg3)

/-- What the result array ends holding. -/
abbrev res (c : Dev nD) : FVec Ideal S8x512x2048 .f32 := out (xarr m c) (wkarr m c) (wqarr m c) (wvarr m c)

abbrev xblk (c : Dev nD) (t : Fin cfg0.N) : FVec Ideal S1x2048x512 .f32 := iblk m c 0 t
abbrev wqblk (c : Dev nD) (t : Fin cfg0.N) : FVec Ideal S512x512 .bf16 := iblk m c 1 t
abbrev wkblk (c : Dev nD) (t : Fin cfg0.N) : FVec Ideal S512x512 .bf16 := iblk m c 2 t
abbrev wvblk (c : Dev nD) (t : Fin cfg0.N) : FVec Ideal S512x512 .bf16 := iblk m c 3 t

/-- The batch a grid point works on. -/
abbrev bat (n : ℕ) (h : n < cfg0.N) : Fin 8 := ⟨n / 4, by have hN : cfg0.N = 32 := N_0; omega⟩

/-- The key and value projections of a batch, as the scratches hold them. -/
abbrev keysOf (c : Dev nD) (b : Fin 8) : FVec Ideal S2048x512 .f32 := fun j => proj (xarr m c) (wkarr m c) b (j 0) (j 1)
abbrev valsOf (c : Dev nD) (b : Fin 8) : FVec Ideal S2048x512 .bf16 := fun j => proj (xarr m c) (wvarr m c) b (j 0) (j 1)

/-! ## The index maps, decided over the grid -/

theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = 0 ∧ win0_4.index t (2 : Fin 3) = t.val % 4
    ∧ (grid0.coords t 1).val = t.val % 4 :=
  (by decide +kernel : ∀ t : Fin grid0.N, _)

/-! ## The host's transposed weights -/

theorem V_wq (c : Dev nD) : (V m c main_v1 : FVec Ideal S512x512 .bf16)
    = truncf .bf16 (transpose S512x512 [1, 0] (wqarr m c) transposes_S512x512_S512x512_1_0) bitsLt_bf16_f32 := by
  dsimp only [V, hostOps0]; after_results

theorem V_wk (c : Dev nD) : (V m c main_v3 : FVec Ideal S512x512 .bf16)
    = truncf .bf16 (transpose S512x512 [1, 0] (wkarr m c) transposes_S512x512_S512x512_1_0) bitsLt_bf16_f32 := by
  dsimp only [V, hostOps0]; after_results

theorem V_wv (c : Dev nD) : (V m c main_v5 : FVec Ideal S512x512 .bf16)
    = truncf .bf16 (transpose S512x512 [1, 0] (wvarr m c) transposes_S512x512_S512x512_1_0) bitsLt_bf16_f32 := by
  dsimp only [V, hostOps0]; after_results

/-! ## The blocks read at an entry -/

/-- The input block at point t is batch t / 4. -/
theorem xblk_apply (c : Dev nD) (t : Fin cfg0.N) (s : Fin 2048) (d : Fin 512) :
    xblk m c t (ix3 (0 : Fin 1) s d) = xarr m c (ix3 (bat t.val t.isLt) s d) := by
  show ((cfg0.win 0).blk t).view.read (Elt Ideal) (V m c (Pipeline.arrRef spec0 0)) (ix3 (0 : Fin 1) s d) = _
  rw [View.read_apply]
  show V m c main_arg0 (((cfg0.win 0).blk t).view.emb (ix3 (0 : Fin 1) s d)) = _
  rw [V_main_arg0]
  refine congrArg (m ((c : Thread nD τ).loc main_arg0)) (funext fun a => Fin.ext ?_)
  obtain ⟨e0, e1, e2, -⟩ := idx_facts t
  match a with
  | ⟨0, _⟩ => show win0_0.index t (0 : Fin 3) * 1 + 1 * 0 = t.val / 4; omega
  | ⟨1, _⟩ => show win0_0.index t (1 : Fin 3) * 2048 + 1 * s.val = s.val; omega
  | ⟨2, _⟩ => show win0_0.index t (2 : Fin 3) * 512 + 1 * d.val = d.val; omega

/-- The query weight block is the query weights transposed. -/
theorem wqblk_apply (c : Dev nD) (t : Fin cfg0.N) (d e : Fin 512) :
    wqblk m c t (ix2 d e) = wqarr m c (ix2 e d) := by
  show ((cfg0.win 1).blk t).view.read (Elt Ideal) (V m c (Pipeline.arrRef spec0 1)) (ix2 d e) = _
  rw [View.read_apply]
  show V m c main_v1 (((cfg0.win 1).blk t).view.emb (ix2 d e)) = _
  have hemb : ((cfg0.win 1).blk t).view.emb (ix2 d e) = ix2 d e := funext fun a => Fin.ext (by
    obtain ⟨-, -, -, e3, e4, -⟩ := idx_facts t
    match a with
    | ⟨0, _⟩ => show win0_1.index t (0 : Fin 2) * 512 + 1 * d.val = d.val; omega
    | ⟨1, _⟩ => show win0_1.index t (1 : Fin 2) * 512 + 1 * e.val = e.val; omega)
  rw [hemb, V_wq]
  exact transpose_ix2_apply (wqarr m c) transposes_S512x512_S512x512_1_0 d e

/-- The key weight block is the key weights transposed. -/
theorem wkblk_apply (c : Dev nD) (t : Fin cfg0.N) (d e : Fin 512) :
    wkblk m c t (ix2 d e) = wkarr m c (ix2 e d) := by
  show ((cfg0.win 2).blk t).view.read (Elt Ideal) (V m c (Pipeline.arrRef spec0 2)) (ix2 d e) = _
  rw [View.read_apply]
  show V m c main_v3 (((cfg0.win 2).blk t).view.emb (ix2 d e)) = _
  have hemb : ((cfg0.win 2).blk t).view.emb (ix2 d e) = ix2 d e := funext fun a => Fin.ext (by
    obtain ⟨-, -, -, -, -, e5, e6, -⟩ := idx_facts t
    match a with
    | ⟨0, _⟩ => show win0_2.index t (0 : Fin 2) * 512 + 1 * d.val = d.val; omega
    | ⟨1, _⟩ => show win0_2.index t (1 : Fin 2) * 512 + 1 * e.val = e.val; omega)
  rw [hemb, V_wk]
  exact transpose_ix2_apply (wkarr m c) transposes_S512x512_S512x512_1_0 d e

/-- The value weight block is the value weights transposed. -/
theorem wvblk_apply (c : Dev nD) (t : Fin cfg0.N) (d e : Fin 512) :
    wvblk m c t (ix2 d e) = wvarr m c (ix2 e d) := by
  show ((cfg0.win 3).blk t).view.read (Elt Ideal) (V m c (Pipeline.arrRef spec0 3)) (ix2 d e) = _
  rw [View.read_apply]
  show V m c main_v5 (((cfg0.win 3).blk t).view.emb (ix2 d e)) = _
  have hemb : ((cfg0.win 3).blk t).view.emb (ix2 d e) = ix2 d e := funext fun a => Fin.ext (by
    obtain ⟨-, -, -, -, -, -, -, e7, e8, -⟩ := idx_facts t
    match a with
    | ⟨0, _⟩ => show win0_3.index t (0 : Fin 2) * 512 + 1 * d.val = d.val; omega
    | ⟨1, _⟩ => show win0_3.index t (1 : Fin 2) * 512 + 1 * e.val = e.val; omega)
  rw [hemb, V_wv]
  exact transpose_ix2_apply (wvarr m c) transposes_S512x512_S512x512_1_0 d e

/-- Row r of the query tile at point t is row 512 · (t % 4) + r of the batch. -/
theorem qslice_apply (c : Dev nD) (t : Fin cfg0.N) (r d : Fin 512) (hq : 512 * (t.val % 4) + r.val < 2048) :
    qslice (F := Ideal) (grid0.coords t) (xblk m c t) (ix3 (0 : Fin 1) r d)
      = xarr m c (ix3 (bat t.val t.isLt) (⟨512 * (t.val % 4) + r.val, hq⟩ : Fin 2048) d) := by
  rw [← xblk_apply m c t ⟨512 * (t.val % 4) + r.val, hq⟩ d]
  show xblk m c t _ = xblk m c t _
  refine congrArg (xblk m c t) (funext fun a => Fin.ext ?_)
  have e := k0_off1_eq (grid0.coords t)
  obtain ⟨-, -, -, -, -, -, -, -, -, -, -, -, g1⟩ := idx_facts t
  match a with
  | ⟨0, _⟩ => show k0_off1 (grid0.coords t) 0 + 1 * 0 = 0; rw [e]; rfl
  | ⟨1, _⟩ => show k0_off1 (grid0.coords t) 1 + 1 * r.val = 512 * (t.val % 4) + r.val; rw [e]; show 512 * (grid0.coords t 1).val + 1 * r.val = _; omega
  | ⟨2, _⟩ => show k0_off1 (grid0.coords t) 2 + 1 * d.val = d.val; rw [e]; show 0 + 1 * d.val = _; omega

/-! ## What the scratches hold after every point -/

/-- The key projection a first point stores is its batch's. -/
theorem keys_first (c : Dev nD) (t : Fin cfg0.N) :
    k0_pay2 (F := Ideal) (xblk m c t) (wkblk m c t) = keysOf m c (bat t.val t.isLt) := by
  funext j
  obtain ⟨s, e, rfl⟩ : ∃ (s : Fin 2048) (e : Fin 512), j = ix2 s e := ⟨j 0, j 1, eq_ix2 j⟩
  rw [keys_apply]
  show _ = proj (xarr m c) (wkarr m c) (bat t.val t.isLt) s e
  unfold proj
  exact Finset.sum_congr rfl fun d _ => by rw [xblk_apply, wkblk_apply]

/-- The value projection a first point stores is its batch's. -/
theorem vals_first (c : Dev nD) (t : Fin cfg0.N) :
    k0_pay3 (F := Ideal) (xblk m c t) (wvblk m c t) = valsOf m c (bat t.val t.isLt) := by
  funext j
  obtain ⟨s, e, rfl⟩ : ∃ (s : Fin 2048) (e : Fin 512), j = ix2 s e := ⟨j 0, j 1, eq_ix2 j⟩
  rw [vals_apply]
  show _ = proj (xarr m c) (wvarr m c) (bat t.val t.isLt) s e
  unfold proj
  exact Finset.sum_congr rfl fun d _ => by rw [xblk_apply, wvblk_apply]

/-- After point n the scratches hold the projections of batch n / 4: stored at the points divisible by 4, kept
    at the others, where the batch is still the point before's. -/
theorem scratch_inv (c : Dev nD) : ∀ (n : ℕ) (h : n < cfg0.N),
    (outsAt0 m c n h).2.1 = keysOf m c (bat n h) ∧ (outsAt0 m c n h).2.2 = valsOf m c (bat n h)
  | 0, h => by
    rw [outsAt0_A m c ⟨0, h⟩ rfl]
    dsimp only
    exact ⟨(keys_piece (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩)).trans (keys_first m c ⟨0, h⟩),
      (vals_piece (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩)).trans (vals_first m c ⟨0, h⟩)⟩
  | n + 1, h => by
    by_cases h0 : (n + 1) % 4 = 0
    · rw [outsAt0_A m c ⟨n + 1, h⟩ h0]
      dsimp only
      exact ⟨(keys_piece (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩)).trans (keys_first m c ⟨n + 1, h⟩),
        (vals_piece (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩)).trans (vals_first m c ⟨n + 1, h⟩)⟩
    · rw [outsAt0_B m c ⟨n + 1, h⟩ h0]
      dsimp only
      unfold sout0_B_0 sout0_B_1
      have ih := scratch_inv c n (Nat.lt_of_succ_lt h)
      have hb : bat n (Nat.lt_of_succ_lt h) = bat (n + 1) h := Fin.ext (by show n / 4 = (n + 1) / 4; omega)
      rw [← hb]
      exact ih

/-! ## What each point writes back, the cover, and the run -/

/-- The output block of point t sits at batch t / 4, every feature row, columns from 512 · (t % 4). -/
theorem oblk_emb (t : Fin cfg0.N) (u : Fin 1) (d r : Fin 512) (hq : 512 * (t.val % 4) + r.val < 2048) :
    ((cfg0.win 4).blk t).view.emb (ix3 u d r)
      = ix3 (bat t.val t.isLt) d (⟨512 * (t.val % 4) + r.val, hq⟩ : Fin 2048) := by
  obtain ⟨-, -, -, -, -, -, -, -, -, f0, f1, f2, -⟩ := idx_facts t
  have hu : u.val = 0 := by omega
  funext a; apply Fin.ext
  match a with
  | ⟨0, _⟩ => show win0_4.index t (0 : Fin 3) * 1 + 1 * u.val = t.val / 4; omega
  | ⟨1, _⟩ => show win0_4.index t (1 : Fin 3) * 512 + 1 * d.val = d.val; omega
  | ⟨2, _⟩ => show win0_4.index t (2 : Fin 3) * 512 + 1 * r.val = 512 * (t.val % 4) + r.val; omega

/-- The attention of point t's query tile against its batch's projections is block t of the result. -/
theorem tile_block (c : Dev nD) (t : Fin cfg0.N) (v12 : FVec Ideal S2048x512 .f32) (v13 : FVec Ideal S2048x512 .bf16)
    (h12 : v12 = keysOf m c (bat t.val t.isLt)) (h13 : v13 = valsOf m c (bat t.val t.isLt)) :
    (cfg0.win 4).cut (grid0.coords t) (k0_pay4 (F := Ideal) (qslice (F := Ideal) (grid0.coords t) (xblk m c t)) (wqblk m c t) v12 v13)
      = ((cfg0.win 4).blk t).view.read (Elt Ideal) (res m c) := by
  funext j
  obtain ⟨u, d, r, rfl⟩ : ∃ (u : Fin 1) (d r : Fin 512), j = ix3 u d r := ⟨j 0, j 1, j 2, eq_ix3 j⟩
  have hq : 512 * (t.val % 4) + r.val < 2048 := by have := r.isLt; omega
  show k0_pay4 (F := Ideal) (qslice (F := Ideal) (grid0.coords t) (xblk m c t)) (wqblk m c t) v12 v13 (ix3 u d r)
    = res m c (((cfg0.win 4).blk t).view.emb (ix3 u d r))
  rw [oblk_emb t u d r hq]
  exact tile_spec (xarr m c) (wkarr m c) (wqarr m c) (wvarr m c) (bat t.val t.isLt) ⟨512 * (t.val % 4) + r.val, hq⟩ r
    (qslice (F := Ideal) (grid0.coords t) (xblk m c t)) (wqblk m c t) v12 v13
    (fun d' => qslice_apply m c t r d' hq) (fun d' e => wqblk_apply m c t d' e)
    (fun k e => by rw [h12]) (fun k d' => by rw [h13]) u d

/-- What point t writes back is block t of the result. -/
theorem flushed_eq (c : Dev nD) (t : Fin cfg0.N) :
    (dats m 0 c).flushed 4 t = ((cfg0.win 4).blk t).view.read (Elt Ideal) (res m c) := by
  have hN : cfg0.N = 32 := N_0
  by_cases h0 : t.val % 4 = 0
  · rw [Cert.KernelIdeal.Value.flushed4_A m c t h0,
      tile_piece_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)]
    exact tile_block m c t _ _ (keys_first m c t) (vals_first m c t)
  · rw [Cert.KernelIdeal.Value.flushed4_B m c t h0,
      tile_piece_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t)
        (outsAt0 m c (t.val - 1) (Nat.lt_of_le_of_lt (Nat.sub_le _ _) t.isLt)).2.1
        (outsAt0 m c (t.val - 1) (Nat.lt_of_le_of_lt (Nat.sub_le _ _) t.isLt)).2.2]
    have ih := scratch_inv m c (t.val - 1) (Nat.lt_of_le_of_lt (Nat.sub_le _ _) t.isLt)
    have hb : bat (t.val - 1) (Nat.lt_of_le_of_lt (Nat.sub_le _ _) t.isLt) = bat t.val t.isLt :=
      Fin.ext (by show (t.val - 1) / 4 = t.val / 4; omega)
    exact tile_block m c t _ _ (by rw [← hb]; exact ih.1) (by rw [← hb]; exact ih.2)

/-- An index of the result array is in point t's block iff each coordinate is in the block's range on its axis. -/
theorem mem_blk (t : Fin cfg0.N) (i : S8x512x2048.Idx) :
    i ∈ ((cfg0.win 4).blk t).view.set ↔ ∀ a : Fin 3, win0_4.index t a * S1x512x512.size a ≤ (i a).val
      ∧ (i a).val < win0_4.index t a * S1x512x512.size a + S1x512x512.size a := by
  show i ∈ ((View.whole main_v6).slice (win0_4.rect t)).set ↔ _
  rw [View.set_slice_whole, Rect.mem_set_unit]
  exact Iff.rfl

/-- Entry (b, d, q) lies in the block of point 4 · b + q / 512. -/
theorem cover (i : S8x512x2048.Idx) : ∃ t : Fin cfg0.N, (cfg0.win 4).flush t = true ∧ i ∈ ((cfg0.win 4).blk t).view.set := by
  have hN : cfg0.N = 32 := N_0
  have h0 : (i 0).val < 8 := (i 0).isLt
  have h1 : (i 1).val < 512 := (i 1).isLt
  have h2 : (i 2).val < 2048 := (i 2).isLt
  refine ⟨⟨4 * (i 0).val + (i 2).val / 512, by omega⟩, flush0_4 _, ?_⟩
  rw [mem_blk]
  obtain ⟨-, -, -, -, -, -, -, -, -, f0, f1, f2, -⟩ := idx_facts ⟨4 * (i 0).val + (i 2).val / 512, by omega⟩
  intro a
  match a with
  | ⟨0, _⟩ =>
    show win0_4.index _ (0 : Fin 3) * 1 ≤ (i 0).val ∧ (i 0).val < win0_4.index _ (0 : Fin 3) * 1 + 1
    rw [f0]; dsimp only; omega
  | ⟨1, _⟩ =>
    show win0_4.index _ (1 : Fin 3) * 512 ≤ (i 1).val ∧ (i 1).val < win0_4.index _ (1 : Fin 3) * 512 + 512
    rw [f1]; omega
  | ⟨2, _⟩ =>
    show win0_4.index _ (2 : Fin 3) * 512 ≤ (i 2).val ∧ (i 2).val < win0_4.index _ (2 : Fin 3) * 512 + 512
    rw [f2]; dsimp only; omega

/-- The result array after the run. -/
theorem final (c : Dev nD) : (dats m 0 c).arrAt 4 cfg0.N = res m c :=
  (dats m 0 c).arrAt_eq_of_cover 4 (res m c) (fun t _ => flushed_eq m c t) (cover)

/-- The run: the result array at the specification's function of the arguments, the arguments unchanged. -/
theorem run : θ_run defs (onTc (τ := τ) (main (F := Ideal))) ⟨m, fun _ => 0, ρ⟩ fun r => ∀ c : Dev nD,
      r.2.mem ((c : Thread nD τ).loc main_v6) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩)
    (Cert.KernelIdeal.Value.run_blocks m ρ)

end Cert.Attention.Run

end
-- ==== Proof.lean ====
/-
  The kernel computes, for each of 8 batches of 2048 rows of 512 features, single-head attention with the logits scaled
  by 5: the rows are projected to queries, keys and values by three 512 × 512 weight matrices, every query row's logits
  against all key rows are turned into softmax weights (shifted by the row maximum), and the weighted sums of the value
  rows are stored transposed, feature by row. It works batch by batch, four query tiles of 512 rows per batch, keeping
  a batch's key and value projections in two scratch buffers that the first tile's grid point fills. The reference
  computes the same with whole-array products.

  Over the extended reals the two results are the same function of the four arguments, entry by entry: every stage of
  either program is one of the functions of the specification (sums over the contracted axis, the fold of max from −∞,
  the shifted exponential, the quotient by the row sum), a change of float format is the identity, and the only law
  used between the two sides is that a product commutes and that −∞ is neutral for max. No finiteness is needed, so the
  precondition is never opened. The idealization rewrote nothing, and the three programs' frames are their runs.
-/
import proofs.«413124_j39676907885178_3_alg».proof.Defs
import proofs.«413124_j39676907885178_3_alg».proof.Proof.Gen.Kernel
import proofs.«413124_j39676907885178_3_alg».proof.Proof.Gen.Kernel.Skeleton
import proofs.«413124_j39676907885178_3_alg».proof.Proof.Gen.Kernel.Launch
import proofs.«413124_j39676907885178_3_alg».proof.Proof.Gen.Kernel.Points
import proofs.«413124_j39676907885178_3_alg».proof.Proof.Gen.Kernel.Frame
import proofs.«413124_j39676907885178_3_alg».proof.Proof.Gen.KernelIdeal
import proofs.«413124_j39676907885178_3_alg».proof.Proof.Gen.KernelIdeal.Skeleton
import proofs.«413124_j39676907885178_3_alg».proof.Proof.Gen.KernelIdeal.Launch
import proofs.«413124_j39676907885178_3_alg».proof.Proof.Gen.KernelIdeal.Points
import proofs.«413124_j39676907885178_3_alg».proof.Proof.Gen.KernelIdeal.Frame
import proofs.«413124_j39676907885178_3_alg».proof.Proof.Gen.ReferenceIdeal
import proofs.«413124_j39676907885178_3_alg».proof.Proof.Gen.Pre_finite_inputs
import proofs.«413124_j39676907885178_3_alg».proof.Proof.Gen.KernelIdeal.Value
import proofs.«413124_j39676907885178_3_alg».proof.Proof.Gen.ReferenceIdeal.Run
import proofs.«413124_j39676907885178_3_alg».proof.Proof.Gen.ReferenceIdeal.Read
import proofs.«413124_j39676907885178_3_alg».proof.Proof.RefValue
import proofs.«413124_j39676907885178_3_alg».proof.Proof.Blocks
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the specification's function of arguments that agree. -/
theorem algebraic : Cert.algebraic_KernelIdeal_ReferenceIdeal := by
  intro m ρ m' ρ' _ hagree
  refine ⟨fun c => Cert.Attention.Run.res m c, Cert.Attention.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Attention.Ref.result_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
